-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x12 : S_.BroadcastsInDim S4096x12 (![] : Fin 0 → Fin S4096x12.rank)
  reducesTo_S4096x12_S_d0_1 : S4096x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S4096x12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S4096x12 .f32 := Host.absf main_arg4
  let main_cst_6 : FVec F S_ .f32 := constant S_ .f32 0x7F800000#32
  let main_v20 : FVec F S4096x12 .f32 := broadcastInDim S4096x12 ![] bcast_S_S4096x12 main_cst_6
  let main_v21 : IVec S4096x12 1 := cmpf .olt main_v19 main_v20
  let main_c_7 : IVec S_ 1 := constantI S_ 1 1#1
  let main_v22 : IVec S_ 1 := (fun x v => Host.reduce IntOp.andi x v reducesTo_S4096x12_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096x12 .f32) (main_arg3 : FVec F S12 .f32) (main_arg4 : FVec F S4096x12 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x12 .f32 := Host.absf main_arg2
  let main_cst_2 : FVec F S_ .f32 := constant S_ .f32 0x7F800000#32
  let main_v10 : FVec F S4096x12 .f32 := broadcastInDim S4096x12 ![] bcast_S_S4096x12 main_cst_2
  let main_v11 : IVec S4096x12 1 := cmpf .olt main_v9 main_v10
  let main_c_3 : IVec S_ 1 := constantI S_ 1 1#1
  let main_v12 : IVec S_ 1 := (fun x v => Host.reduce IntOp.andi x v reducesTo_S4096x12_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S1x12 : Shape := ⟨2, ![1, 12]⟩
abbrev S12x4096 : Shape := ⟨2, ![12, 4096]⟩
abbrev S_ : Shape := ⟨0, ![]⟩
abbrev S16384x4096 : Shape := ⟨2, ![16384, 4096]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x12, .f32⟩
  | .hbm, ⟨3, _⟩ => ⟨S12, .f32⟩
  | .hbm, ⟨4, _⟩ => ⟨S4096x12, .f32⟩
  | .hbm, ⟨5, _⟩ => ⟨S1x12, .f32⟩
  | .hbm, ⟨6, _⟩ => ⟨S4096x12, .f32⟩
  | .hbm, ⟨7, _⟩ => ⟨S4096x12, .f32⟩
  | .hbm, ⟨8, _⟩ => ⟨S12x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S16384x4096, .f32⟩
  | .hbm, ⟨15, _⟩ => ⟨S16384x4096, .bf16⟩
  | .hbm, ⟨16, _⟩ => ⟨S4096x4096, .bf16⟩
  | .hbm, ⟨17, _⟩ => ⟨S16384x4096, .f32⟩
  | .hbm, ⟨18, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  transposes_S4096x12_S12x4096_1_0 : S4096x12.Transposes [1, 0] S12x4096
  bcast_S_S4096x4096 : S_.BroadcastsInDim S4096x4096 (![] : Fin 0 → Fin S4096x4096.rank)
  shapeCasts_S4x4096x4096_S16384x4096 : S4x4096x4096.ShapeCasts S16384x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S4x4096x4096 : S16384x4096.ShapeCasts S4x4096x4096
  dot_S4096x12_S12x4096_S4096x4096_1_0_0_1_n_n_wf : DotDims.WF S4096x12 S12x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S4096x12_S12x4096_S4096x4096_1_0_0_1_n_n : DotDims S4096x12 S12x4096 S4096x4096 where
  lhsContracting := [1]
  rhsContracting := [0]
  lhsNonContracting := [0]
  rhsNonContracting := [1]
  lhsBatch := []
  rhsBatch := []
  wf := dot_S4096x12_S12x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S1x12 : Shape := ⟨2, ![1, 12]⟩
abbrev S12x4096 : Shape := ⟨2, ![12, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x12, .f32⟩
  | .hbm, ⟨3, _⟩ => ⟨S12, .f32⟩
  | .hbm, ⟨4, _⟩ => ⟨S4096x12, .f32⟩
  | .hbm, ⟨5, _⟩ => ⟨S4x4096x4096, .f32⟩
  | .hbm, ⟨6, _⟩ => ⟨S1x12, .f32⟩
  | .hbm, ⟨7, _⟩ => ⟨S4096x12, .f32⟩
  | .hbm, ⟨8, _⟩ => ⟨S4096x12, .f32⟩
  | .hbm, ⟨9, _⟩ => ⟨S12x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4x4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  transposes_S4096x12_S12x4096_1_0 : S4096x12.Transposes [1, 0] S12x4096
  bcast_S_S4096x4096 : S_.BroadcastsInDim S4096x4096 (![] : Fin 0 → Fin S4096x4096.rank)
  dot_S4x4096x4096_S4096x4096_S4x4096x4096_2_1_01_0_n_n_wf : DotDims.WF S4x4096x4096 S4096x4096 S4x4096x4096 [2] [1] [0, 1] [0] [] []
  dot_S4096x12_S12x4096_S4096x4096_1_0_0_1_n_n_wf : DotDims.WF S4096x12 S12x4096 S4096x4096 [1] [0] [0] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4096x12_S12x4096_S4096x4096_1_0_0_1_n_n : DotDims S4096x12 S12x4096 S4096x4096 where
  lhsContracting := [1]
  rhsContracting := [0]
  lhsNonContracting := [0]
  rhsNonContracting := [1]
  lhsBatch := []
  rhsBatch := []
  wf := dot_S4096x12_S12x4096_S4096x4096_1_0_0_1_n_n_wf

class Facts : Prop extends Facts₀ where

variable [Facts]
-- ==== Proof.KPieces.lean ====
/-
  What one grid point of the blocked matrix product leaves behind, as values.

  The kernel keeps a 1024 × 1024 accumulator across the four points that share an output block. At the first of the
  four it stores the zero block and then adds the product of that point's activation block with the transpose of
  its weight block; at the other points it adds the point's product to what the point before left; at the last
  point it also copies the accumulator into the output block. Each of these is one store that covers the whole
  buffer, so what the buffer holds afterwards is that store's value, and the loads it is computed from read whole
  buffers. The accumulator's update is the same pure function at every point: the old accumulator plus the block
  product.
-/
import proofs.«153815_j48576080118359_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem zero_offsets : (![0, 0] : Fin 2 → Nat) = fun _ => 0 := funext fun a => by fin_cases a <;> rfl

/-- A point that is neither the first nor the last of its four: the accumulator ends at the old accumulator plus the
    block product. -/
theorem acc_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero zero_offsets]
  simp only [View.readAt_eq_ld, h3.read_unread, h4.read_unread, h6.read_unread, View.ld_unit_zero (S := S1024x1024) zero_offsets]

/-- The first of the four points: the zero block is stored, read back, and the block product added to it. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, View.ld_unit_zero (S := S1024x1024) zero_offsets]

/-- The last of the four points: the accumulator again ends at the old accumulator plus the block product, -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero zero_offsets]
  simp only [View.readAt_eq_ld, h3.read_unread, h4.read_unread, h6.read_unread, View.ld_unit_zero (S := S1024x1024) zero_offsets]

/-- and the output block is that same value, read back from the accumulator and stored whole. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero zero_offsets, View.readCov_unit_zero (S := S1024x1024) _ zero_offsets]
  simp only [View.readAt_eq_ld, h3.read_unread, h4.read_unread, h6.read_unread, View.ld_unit_zero (S := S1024x1024) zero_offsets]

end Cert.KernelIdeal.Acc

end
-- ==== Proof.LibTransposedMatmul.lean ====
/-
  A matrix product that contracts BOTH operands on their last axis — an `M × K` array against an `N × K` array,
  the result `M × N` — read at one entry, at the ideal instance (floats are extended reals).

  Into a zero accumulator the entry `(r, c)` is the sum over `k` of `x[r, k] · w[c, k]`: the product of `x` with the
  transpose of `w`, without any transpose being formed. The dimension numbers contract axis 1 of each operand, the
  result's row is the left operand's row and the result's column is the right operand's ROW; re-indexing the
  one-axis contraction by its single coordinate gives the textbook sum.
-/
import Idealize.ShloMosaic.PureOps.Ideal.Laws
import Idealize.ShloMosaic.Lib.ValueIdx
import Idealize.ShloMosaic.Lib.Pipeline.Value

noncomputable section

open scoped BigOperators

namespace Cert.MatT

open Idealize.ShloMosaic Idealize.ShloMosaic.ValueIdx

/-- The left operand's row coordinate is the result's row coordinate. -/
theorem transposedRhs_lhs_row (M K N : Nat) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's ROW coordinate is the result's column coordinate. -/
theorem transposedRhs_rhs_row (M K N : Nat) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- A product contracting both operands' last axes, into a zero accumulator, read at an entry: the sum over the
    contracted index of the products of the two ROWS' entries. -/
theorem transposedRhs_matmul_apply {φ₁ φ₂ : FTy} (M K N : Nat) (prec : Option ContractPrecision)
    (x : FVec Ideal ⟨2, ![M, K]⟩ φ₁) (w : FVec Ideal ⟨2, ![N, K]⟩ φ₂) (j : (⟨2, ![M, N]⟩ : Shape).Idx) :
    FloatOps.matmul (DotDims.transposedRhs M K N) prec x w (constant ⟨2, ![M, N]⟩ .f32 0x00000000#32) j
      = ∑ k : Fin K, x (ix2 (j 0) k) * w (ix2 (j 1) k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposedRhs_lhs_row M K N _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposedRhs_rhs_row M K N _ _
      | ⟨1, _⟩ => exact ((DotDims.transposedRhs M K N).rhsIdx_val_of_single rfl _ _).trans hk)
  rw [el, er]
  rfl

end Cert.MatT

end
-- ==== Proof.LibPartialDot.lean ====
/-
  The product of an `R × C` array with the TRANSPOSE of an `N × C` array — entry `(r, e)` is the sum over the
  shared last axis `d` of `x[r, d] · w[e, d]` — built up along `d` in consecutive stretches, over the extended reals.

  `dotUpTo x w n r e` is the part of that sum with `d < n`. It starts at zero, a further stretch of `k` columns adds
  its own `k` products (`dotUpTo_add`: a sum over a range splits at any point, and addition of extended reals is
  associative, so no finiteness is needed), and at `n = C` it is the whole entry (`dotUpTo_full`). Coordinates are
  natural numbers, an entry outside the array reading zero, so that the arithmetic of block offsets is plain
  arithmetic of naturals.
-/
import Idealize.ShloMosaic.PureOps.Ideal.Laws
import Idealize.ShloMosaic.Lib.ValueIdx

noncomputable section

open scoped BigOperators

namespace Cert.Accum

open Idealize.ShloMosaic Idealize.ShloMosaic.ValueIdx

variable {R N C : ℕ}

/-- An entry of a rank-2 array at natural-number coordinates; zero outside the array. -/
def rd (x : (⟨2, ![R, C]⟩ : Shape).Idx → EReal) (r d : ℕ) : EReal :=
  if h : r < R ∧ d < C then x (ix2 ⟨r, h.1⟩ ⟨d, h.2⟩) else 0

/-- Inside the array it is the entry. -/
theorem rd_of_lt (x : (⟨2, ![R, C]⟩ : Shape).Idx → EReal) {r d : ℕ} (hr : r < R) (hd : d < C) :
    rd x r d = x (ix2 ⟨r, hr⟩ ⟨d, hd⟩) := dif_pos ⟨hr, hd⟩

/-- The entry `(r, e)` of `x · wᵀ` restricted to the columns `d < n`. -/
def dotUpTo (x : (⟨2, ![R, C]⟩ : Shape).Idx → EReal) (w : (⟨2, ![N, C]⟩ : Shape).Idx → EReal) (n r e : ℕ) : EReal :=
  ∑ d ∈ Finset.range n, rd x r d * rd w e d

/-- No columns: zero. -/
theorem dotUpTo_zero (x : (⟨2, ![R, C]⟩ : Shape).Idx → EReal) (w : (⟨2, ![N, C]⟩ : Shape).Idx → EReal) (r e : ℕ) :
    dotUpTo x w 0 r e = 0 := Finset.sum_range_zero _

/-- A further stretch of `k` columns adds its `k` products. -/
theorem dotUpTo_add (x : (⟨2, ![R, C]⟩ : Shape).Idx → EReal) (w : (⟨2, ![N, C]⟩ : Shape).Idx → EReal) (n k r e : ℕ) :
    dotUpTo x w (n + k) r e = dotUpTo x w n r e + ∑ d : Fin k, rd x r (n + d.val) * rd w e (n + d.val) := by
  unfold dotUpTo
  rw [Finset.sum_range_add]
  exact congrArg (_ + ·) (Finset.sum_range fun d => rd x r (n + d) * rd w e (n + d))

/-- One step of the accumulation in stretches of `k` columns: a value that is the product up to stretch `n`, plus
    stretch `n`'s products, is the product up to stretch `n + 1`. -/
theorem dotUpTo_step (x : (⟨2, ![R, C]⟩ : Shape).Idx → EReal) (w : (⟨2, ![N, C]⟩ : Shape).Idx → EReal) (k n r e : ℕ)
    (s : EReal) (blk : Fin k → EReal) (hs : s = dotUpTo x w (k * n) r e)
    (hb : ∀ d : Fin k, blk d = rd x r (k * n + d.val) * rd w e (k * n + d.val)) :
    s + ∑ d : Fin k, blk d = dotUpTo x w (k * (n + 1)) r e := by
  rw [Nat.mul_succ, dotUpTo_add, hs]
  exact congrArg (dotUpTo x w (k * n) r e + ·) (Finset.sum_congr rfl fun d _ => hb d)

/-- All `C` columns: the whole entry of `x · wᵀ`. -/
theorem dotUpTo_full (x : (⟨2, ![R, C]⟩ : Shape).Idx → EReal) (w : (⟨2, ![N, C]⟩ : Shape).Idx → EReal) {r e : ℕ}
    (hr : r < R) (he : e < N) :
    dotUpTo x w C r e = ∑ d : Fin C, x (ix2 ⟨r, hr⟩ d) * w (ix2 ⟨e, he⟩ d) := by
  unfold dotUpTo
  rw [Finset.sum_range]
  exact Finset.sum_congr rfl fun d _ => by rw [rd_of_lt x hr d.isLt, rd_of_lt w he d.isLt]

end Cert.Accum

end
-- ==== Proof.KBlocks.lean ====
/-
  The blocks the pipeline hands the kernel body, and one accumulation step, read entry by entry at the ideal
  instance (floats are extended reals).

  The grid has 16 × 4 × 4 points; point number `t` has coordinates `(t / 16, (t / 4) % 4, t % 4)`: the row block of the
  activations, the row block of the weights, and the block of the shared (contracted) axis. The activation block at
  `t` is rows `1024 · (t / 16) + p`, columns `1024 · (t % 4) + d` of the flattened activations; the weight block is
  rows `1024 · ((t / 4) % 4) + q`, the same columns, of the effective weights; the output block is rows
  `1024 · (t / 16) + p`, columns `1024 · ((t / 4) % 4) + q`. One step adds to the accumulator, at `(p, q)`, the sum over
  the block's 1024 columns of activation times weight: the matrix unit's product into a zero accumulator contracts the
  second axis of BOTH blocks.
-/
import proofs.«153815_j48576080118359_1_alg».proof.Proof.KPieces
import proofs.«153815_j48576080118359_1_alg».proof.Proof.LibTransposedMatmul
import proofs.«153815_j48576080118359_1_alg».proof.Proof.LibPartialDot

noncomputable section

open scoped BigOperators

open Idealize.ShloMosaic Idealize.ShloMosaic.TcCoe Idealize.SL.Sem

namespace Cert.KernelIdeal.Acc

open Cert.KernelIdeal Cert.KernelIdeal.Gen Idealize.ShloMosaic.ValueIdx

variable (m : (ℓ : Loc nD τ sig) → Buf (Elt Ideal) ℓ)

/-- The flattened activations and the effective weights, as the region finds them. -/
abbrev xarr (c : Dev nD) : S16384x4096.Idx → EReal := V m c main_v9
abbrev warr (c : Dev nD) : S4096x4096.Idx → EReal := V m c main_v10
/-- Their blocks at a grid point. -/
abbrev xblk (c : Dev nD) (t : Fin cfg0.N) : S1024x1024.Idx → EReal := iblk m c 0 t
abbrev wblk (c : Dev nD) (t : Fin cfg0.N) : S1024x1024.Idx → EReal := iblk m c 1 t

/-- The block indices of the three windows at point `t`, decided over the grid's 256 points. -/
theorem block_indices : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = t.val / 16 ∧ win0_2.index t (1 : Fin 2) = (t.val / 4) % 4 :=
  (by decide +kernel : ∀ t : Fin grid0.N, _)

/-- The activation block at `t`, entry `(p, d)`. -/
theorem xblk_apply (c : Dev nD) (t : Fin cfg0.N) (p d : Fin 1024) :
    xblk m c t (ix2 p d) = Cert.Accum.rd (xarr m c) (1024 * (t.val / 16) + p.val) (1024 * (t.val % 4) + d.val) := by
  have hN : t.val < 256 := lt_of_lt_of_eq t.isLt (show cfg0.N = 256 from N_0)
  rw [Cert.Accum.rd_of_lt _ (by omega) (by omega)]
  obtain ⟨e0, e1, -⟩ := block_indices t
  show iblk m c 0 t (ix2 p d) = _
  unfold iblk
  rw [View.read_apply]
  show V m c main_v9 _ = V m c main_v9 _
  congr 1
  funext a
  apply Fin.ext
  match a with
  | ⟨0, _⟩ => show win0_0.index t (0 : Fin 2) * 1024 + 1 * p.val = 1024 * (t.val / 16) + p.val; omega
  | ⟨1, _⟩ => show win0_0.index t (1 : Fin 2) * 1024 + 1 * d.val = 1024 * (t.val % 4) + d.val; omega

/-- The weight block at `t`, entry `(q, d)`. -/
theorem wblk_apply (c : Dev nD) (t : Fin cfg0.N) (q d : Fin 1024) :
    wblk m c t (ix2 q d) = Cert.Accum.rd (warr m c) (1024 * ((t.val / 4) % 4) + q.val) (1024 * (t.val % 4) + d.val) := by
  have hN : t.val < 256 := lt_of_lt_of_eq t.isLt (show cfg0.N = 256 from N_0)
  rw [Cert.Accum.rd_of_lt _ (by omega) (by omega)]
  obtain ⟨-, -, e0, e1, -⟩ := block_indices t
  show iblk m c 1 t (ix2 q d) = _
  unfold iblk
  rw [View.read_apply]
  show V m c main_v10 _ = V m c main_v10 _
  congr 1
  funext a
  apply Fin.ext
  match a with
  | ⟨0, _⟩ => show win0_1.index t (0 : Fin 2) * 1024 + 1 * q.val = 1024 * ((t.val / 4) % 4) + q.val; omega
  | ⟨1, _⟩ => show win0_1.index t (1 : Fin 2) * 1024 + 1 * d.val = 1024 * (t.val % 4) + d.val; omega

/-- The dimension numbers the matrix unit is called with contract the second axis of both operands. -/
theorem dims_eq : dot_S1024x1024_S1024x1024_S1024x1024_1_1_0_0_n_n = DotDims.transposedRhs 1024 1024 1024 := rfl

/-- One accumulation step at entry `(p, q)`: the old accumulator plus the sum over the block's columns. -/
theorem step_apply (acc x0 x1 : S1024x1024.Idx → EReal) (p q : Fin 1024) :
    k0_pay2 (F := Ideal) acc x0 x1 (ix2 p q) = acc (ix2 p q) + ∑ d : Fin 1024, x0 (ix2 p d) * x1 (ix2 q d) := by
  unfold k0_pay2
  simp only [shapeCast_self]
  rw [dims_eq]
  exact congrArg (acc (ix2 p q) + ·)
    (Cert.MatT.transposedRhs_matmul_apply (φ₁ := .bf16) (φ₂ := .bf16) 1024 1024 1024 none x0 x1 (ix2 p q))

/-- The block the first point of four stores before accumulating is zero everywhere. -/
theorem reset_apply (j : S1024x1024.Idx) : k0_pay1 (F := Ideal) j = 0 := by
  unfold k0_pay1
  simp only [shapeCast_self]
  show Ideal.ofBits .f32 0x00000000#32 = 0
  exact Ideal.ofBits_zero_f32

end Cert.KernelIdeal.Acc

end
-- ==== Proof.KInvariant.lean ====
/-
  What the accumulator holds after every grid point, by induction on the point.

  Write a point as `t = 16·a + 4·b + k`. After point `t` the accumulator's entry `(p, q)` is the part of the entry
  `(1024·a + p, 1024·b + q)` of activations times transposed effective weights that comes from the first
  `1024·(k + 1)` columns of the contracted axis. At `k = 0` the accumulator is reset to zero and the first stretch of
  1024 columns added; at `k > 0` the point's stretch is added to what the point before left, and stepping from `t - 1` to
  `t` changes neither `a` nor `b`. No finiteness is needed: the partial sums only re-associate additions.
-/
import proofs.«153815_j48576080118359_1_alg».proof.Proof.KBlocks

noncomputable section

open scoped BigOperators

open Idealize.ShloMosaic Idealize.ShloMosaic.TcCoe Idealize.SL.Sem

namespace Cert.KernelIdeal.Acc

open Cert.KernelIdeal Cert.KernelIdeal.Gen Idealize.ShloMosaic.ValueIdx Cert.Accum

variable (m : (ℓ : Loc nD τ sig) → Buf (Elt Ideal) ℓ)

/-- The step shared by all three cases: if the value the body starts from is the partial product up to the point's
    stretch, the body's update is the partial product up to the next stretch. -/
theorem step_partial (c : Dev nD) (t : Fin cfg0.N) (acc : S1024x1024.Idx → EReal) (p q : Fin 1024)
    (hacc : acc (ix2 p q) = dotUpTo (xarr m c) (warr m c) (1024 * (t.val % 4))
      (1024 * (t.val / 16) + p.val) (1024 * ((t.val / 4) % 4) + q.val)) :
    k0_pay2 (F := Ideal) acc (xblk m c t) (wblk m c t) (ix2 p q)
      = dotUpTo (xarr m c) (warr m c) (1024 * (t.val % 4 + 1))
          (1024 * (t.val / 16) + p.val) (1024 * ((t.val / 4) % 4) + q.val) := by
  refine (step_apply acc (xblk m c t) (wblk m c t) p q).trans ?_
  exact dotUpTo_step (xarr m c) (warr m c) 1024 (t.val % 4) _ _ _
    (fun d => xblk m c t (ix2 p d) * wblk m c t (ix2 q d)) hacc
    (fun d => by rw [xblk_apply, wblk_apply])

/-- After point `n` the accumulator is the partial product up to the point's stretch, the stretch included. -/
theorem acc_eq (c : Dev nD) : ∀ (n : ℕ) (h : n < cfg0.N) (p q : Fin 1024),
    (outsAt0 m c n h).2 (ix2 p q) = dotUpTo (xarr m c) (warr m c) (1024 * (n % 4 + 1))
      (1024 * (n / 16) + p.val) (1024 * ((n / 4) % 4) + q.val) := by
  intro n
  induction n with
  | zero =>
    intro h p q
    rw [outsAt0_A m c ⟨0, h⟩ rfl (by show ¬0 % 4 = 3; decide)]
    dsimp only
    refine (congrFun (acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)) (ix2 p q)).trans ?_
    exact step_partial m c ⟨0, h⟩ _ p q ((reset_apply _).trans (dotUpTo_zero _ _ _ _).symm)
  | succ n ih =>
    intro h p q
    have hN : n + 1 < 256 := lt_of_lt_of_eq h (show cfg0.N = 256 from N_0)
    by_cases h0 : (n + 1) % 4 = 0
    · have h1 : ¬(n + 1) % 4 = 3 := by omega
      rw [outsAt0_A m c ⟨n + 1, h⟩ h0 h1]
      dsimp only
      refine (congrFun (acc_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)) (ix2 p q)).trans ?_
      refine step_partial m c ⟨n + 1, h⟩ _ p q ((reset_apply _).trans ?_)
      show (0 : EReal) = dotUpTo (xarr m c) (warr m c) (1024 * ((n + 1) % 4)) _ _
      rw [h0]
      exact (dotUpTo_zero _ _ _ _).symm
    · have e1 : 1024 * (n % 4 + 1) = 1024 * ((n + 1) % 4) := by omega
      have e2 : 1024 * (n / 16) + p.val = 1024 * ((n + 1) / 16) + p.val := by omega
      have e3 : 1024 * ((n / 4) % 4) + q.val = 1024 * (((n + 1) / 4) % 4) + q.val := by omega
      have hprev : (outsAt0 m c n (Nat.lt_of_succ_lt h)).2 (ix2 p q)
          = dotUpTo (xarr m c) (warr m c) (1024 * ((n + 1) % 4)) (1024 * ((n + 1) / 16) + p.val) (1024 * (((n + 1) / 4) % 4) + q.val) := by
        rw [ih (Nat.lt_of_succ_lt h) p q, e1, e2, e3]
      by_cases h1 : (n + 1) % 4 = 3
      · rw [outsAt0_C m c ⟨n + 1, h⟩ h0 h1]
        dsimp only
        refine (congrFun (acc_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2) (ix2 p q)).trans ?_
        exact step_partial m c ⟨n + 1, h⟩ _ p q hprev
      · rw [outsAt0_B m c ⟨n + 1, h⟩ h0 h1]
        dsimp only
        refine (congrFun (acc_mid (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2) (ix2 p q)).trans ?_
        exact step_partial m c ⟨n + 1, h⟩ _ p q hprev

/-- At the last point of each four the output block is written with the same value as the accumulator. -/
theorem out_eq (c : Dev nD) (t : Fin cfg0.N) (h3 : t.val % 4 = 3) (p q : Fin 1024) :
    (outsAt0 m c t.val t.isLt).1 (ix2 p q) = (outsAt0 m c t.val t.isLt).2 (ix2 p q) := by
  have h0 : ¬t.val % 4 = 0 := by omega
  rw [outsAt0_C m c t h0 h3]
  dsimp only
  refine (congrFun (out_last (F := Ideal) c (grid0.coords t) (ms0_0 t) (hs0_0 t) (ms0_1 t) (hs0_1 t)
    (ms0_2 t) (hs0_2 t) scM0_0 (Memref.isWhole_whole _) _ _ (iblk m c 0 t) (iblk m c 1 t) _) (ix2 p q)).trans ?_
  exact (congrFun (acc_last (F := Ideal) c (grid0.coords t) (ms0_0 t) (hs0_0 t) (ms0_1 t) (hs0_1 t)
    (ms0_2 t) (hs0_2 t) scM0_0 (Memref.isWhole_whole _) _ _ (iblk m c 0 t) (iblk m c 1 t) _) (ix2 p q)).symm

end Cert.KernelIdeal.Acc

end
-- ==== Proof.Algebra.lean ====
/-
  Two facts about extended reals that join the kernel's arrangement of the result to the reference's.

  The kernel multiplies each activation by the SUM of a base weight and a low-rank correction and adds the products
  up; the reference adds up the products with the base weights and the products with the corrections separately and
  adds the two totals. A product distributes over a sum of extended reals as soon as the multiplier and one of the
  summands are real numbers — the other summand may be anything, infinite included — and a finite sum of
  term-by-term sums is the sum of the two totals in any commutative monoid. So the two arrangements agree whenever
  the activations and the base weights are finite; nothing is asked of the correction.
-/
import Idealize.ShloMosaic.Lib.ValueIdx

noncomputable section

open scoped BigOperators

namespace Cert.LowRank

/-- A real multiplier distributes over the sum of a real and an arbitrary extended real. -/
theorem coe_mul_add (a b : ℝ) (e : EReal) :
    (a : EReal) * ((b : EReal) + e) = (a : EReal) * (b : EReal) + (a : EReal) * e := by
  induction e using EReal.rec with
  | bot =>
    rcases lt_trichotomy a 0 with h | h | h
    · rw [EReal.add_bot, EReal.coe_mul_bot_of_neg h, ← EReal.coe_mul, EReal.coe_add_top]
    · subst h; simp
    · rw [EReal.add_bot, EReal.coe_mul_bot_of_pos h, EReal.add_bot]
  | coe c =>
    rw [← EReal.coe_add, ← EReal.coe_mul, ← EReal.coe_mul, ← EReal.coe_mul, ← EReal.coe_add, mul_add]
  | top =>
    rcases lt_trichotomy a 0 with h | h | h
    · rw [EReal.coe_add_top, EReal.coe_mul_top_of_neg h, EReal.add_bot]
    · subst h; simp
    · rw [EReal.coe_add_top, EReal.coe_mul_top_of_pos h, ← EReal.coe_mul, EReal.coe_add_top]

/-- Summed over a finite index: with real multipliers and real first summands, the sum of the products with the
    term-by-term sums is the sum of the two separate totals. -/
theorem sum_mul_add {ι : Type*} [Fintype ι] (x w d : ι → EReal)
    (hx : ∀ k, ∃ a : ℝ, x k = (a : EReal)) (hw : ∀ k, ∃ b : ℝ, w k = (b : EReal)) :
    ∑ k, x k * (w k + d k) = ∑ k, x k * w k + ∑ k, x k * d k := by
  rw [← Finset.sum_add_distrib]
  refine Finset.sum_congr rfl fun k _ => ?_
  obtain ⟨a, ha⟩ := hx k
  obtain ⟨b, hb⟩ := hw k
  rw [ha, hb, coe_mul_add]

end Cert.LowRank

end
-- ==== Proof.Spec.lean ====
/-
  The result both programs compute, as one function of the argument arrays.

  `lin x W` is a linear layer read at an entry: the activation row `x[b, s, ·]` against row `o` of the weight array
  `W`, summed over the 4096 input features. The kernel applies it once, to the base weights plus the low-rank
  correction; the reference applies it to the base weights and to the correction separately and adds. With finite
  activations and base weights the two agree (`lin_add`), by distributing each product over its sum.
-/
import proofs.«153815_j48576080118359_1_alg».proof.Proof.Algebra

noncomputable section

open scoped BigOperators

namespace Cert.LowRank

open Idealize.ShloMosaic Idealize.ShloMosaic.ValueIdx

/-- A linear layer at an entry `(b, s, o)`: the sum over the input features `k` of `x[b, s, k] · W[o, k]`. -/
def lin (x : (⟨3, ![4, 4096, 4096]⟩ : Shape).Idx → EReal) (W : (⟨2, ![4096, 4096]⟩ : Shape).Idx → EReal) :
    (⟨3, ![4, 4096, 4096]⟩ : Shape).Idx → EReal :=
  fun i => ∑ k : Fin 4096, x (ix3 (i 0) (i 1) k) * W (ix2 (i 2) k)

/-- The layer of a sum of weight arrays is the sum of the layers, for real activations and real first weights. -/
theorem lin_add (x : (⟨3, ![4, 4096, 4096]⟩ : Shape).Idx → EReal) (w d : (⟨2, ![4096, 4096]⟩ : Shape).Idx → EReal)
    (hx : ∀ i, ∃ a : ℝ, x i = (a : EReal)) (hw : ∀ j, ∃ b : ℝ, w j = (b : EReal)) :
    lin x (fun j => w j + d j) = fun i => lin x w i + lin x d i := by
  funext i
  exact sum_mul_add _ _ _ (fun k => hx _) (fun k => hw _)

end Cert.LowRank

end
-- ==== Proof.KFinal.lean ====
/-
  From the accumulator to the result array, and from the result array to the kernel program's result.

  The output block `(a, b)` is written back once, after the last of its four points, holding the product over all 4096
  columns of the contracted axis: entry `(p, q)` of the block is entry `(1024·a + p, 1024·b + q)` of activations times
  transposed effective weights (`prodT`). The 64 output blocks tile the 16384 × 4096 result, so the whole array is
  `prodT`. Around the region the program flattens the activations' two leading axes before it and splits them again
  after it; both are re-indexings by row-major position, `(b, s) ↦ 4096·b + s`. The conversions to the 16-bit format
  before the region are the identity on extended reals. So the program's result at `(b, s, o)` is the linear layer of
  the effective weights — the base weights plus the correction array.
-/
import proofs.«153815_j48576080118359_1_alg».proof.Proof.KInvariant
import proofs.«153815_j48576080118359_1_alg».proof.Proof.Spec
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Accum Cert.LowRank

variable (m : (ℓ : Loc nD τ sig) → Buf (Elt Ideal) ℓ) (ρ : Dev nD → PrngReg)

/-- Activations times transposed weights, entry by entry. -/
def prodT (X : S16384x4096.Idx → EReal) (W : S4096x4096.Idx → EReal) : S16384x4096.Idx → EReal :=
  fun j => ∑ d : Fin 4096, X (ix2 (j 0) d) * W (ix2 (j 1) d)

/-- What a writing point writes back is its block of `prodT`. -/
theorem flushed_eq (c : Dev nD) (t : Fin cfg0.N) (hf : (cfg0.win 2).flush t = true) :
    (dats m 0 c).flushed 2 t = ((cfg0.win 2).blk t).view.read (Elt Ideal) (prodT (xarr m c) (warr m c)) := by
  have h3 : t.val % 4 = 3 := (flush0_2 t).mp hf
  have hN : t.val < 256 := lt_of_lt_of_eq t.isLt (show cfg0.N = 256 from N_0)
  obtain ⟨-, -, -, -, e0, e1⟩ := block_indices t
  show (cfg0.win 2).cut (grid0.coords t) ((dats m 0 c).after 2 t) = _
  rw [after0_2]
  funext j
  obtain ⟨p, q, rfl⟩ : ∃ (p q : Fin 1024), j = ix2 p q := ⟨j 0, j 1, eq_ix2 j⟩
  show (outsAt0 m c t.val t.isLt).1 (ix2 p q) = prodT (xarr m c) (warr m c) (((cfg0.win 2).blk t).view.emb (ix2 p q))
  rw [out_eq m c t h3, acc_eq m c t.val t.isLt, h3]
  have hr : 1024 * (t.val / 16) + p.val < 16384 := by omega
  have he : 1024 * ((t.val / 4) % 4) + q.val < 4096 := by omega
  refine (dotUpTo_full (xarr m c) (warr m c) hr he).trans ?_
  have r0 : (((cfg0.win 2).blk t).view.emb (ix2 p q)) 0 = ⟨1024 * (t.val / 16) + p.val, hr⟩ :=
    Fin.ext (by show win0_2.index t (0 : Fin 2) * 1024 + 1 * p.val = 1024 * (t.val / 16) + p.val; omega)
  have r1 : (((cfg0.win 2).blk t).view.emb (ix2 p q)) 1 = ⟨1024 * ((t.val / 4) % 4) + q.val, he⟩ :=
    Fin.ext (by show win0_2.index t (1 : Fin 2) * 1024 + 1 * q.val = 1024 * ((t.val / 4) % 4) + q.val; omega)
  unfold prodT
  rw [r0, r1]
  rfl

/-- The result array after the region: every entry lies in the block of the last point of its four, so the blocks
    written back cover the array. -/
theorem final (c : Dev nD) : (dats m 0 c).arrAt 2 cfg0.N = prodT (xarr m c) (warr m c) :=
  (dats m 0 c).arrAt_eq_of_cover 2 (prodT (xarr m c) (warr m c)) (flushed_eq m c) fun i => by
    have hi0 : (i 0 : Nat) < 16384 := (i 0).isLt
    have hi1 : (i 1 : Nat) < 4096 := (i 1).isLt
    have hN : cfg0.N = 256 := N_0
    obtain ⟨t, ht⟩ : ∃ t : Fin cfg0.N, t.val = 16 * ((i 0 : Nat) / 1024) + 4 * ((i 1 : Nat) / 1024) + 3 :=
      ⟨⟨16 * ((i 0 : Nat) / 1024) + 4 * ((i 1 : Nat) / 1024) + 3, by omega⟩, rfl⟩
    obtain ⟨-, -, -, -, e0, e1⟩ := block_indices t
    refine ⟨t, (flush0_2 t).mpr (by omega), ?_⟩
    show i ∈ ((View.whole main_v11).slice (win0_2.rect t)).set
    rw [View.set_slice_whole, Rect.mem_set_unit]
    intro a
    match a with
    | ⟨0, _⟩ =>
      show win0_2.index t (0 : Fin 2) * 1024 ≤ (i 0 : Nat) ∧ (i 0 : Nat) < win0_2.index t (0 : Fin 2) * 1024 + 1024
      omega
    | ⟨1, _⟩ =>
      show win0_2.index t (1 : Fin 2) * 1024 ≤ (i 1 : Nat) ∧ (i 1 : Nat) < win0_2.index t (1 : Fin 2) * 1024 + 1024
      omega

/-- The program's result: the result array with its leading axis split again. -/
theorem tail_eq (c : Dev nD) :
    Pipeline.afterTail₀ cfgs (dats m) 0 (V0 m) [hostOps1] c main_v12
      = shapeCast S4x4096x4096 (prodT (xarr m c) (warr m c)) shapeCasts_S16384x4096_S4x4096x4096 := by
  unfold Pipeline.afterTail₀
  show StableHlo.after hostOps1 _ (Proc.devRef .tc main_v12) = _
  after_results
  exact congrArg (fun a => shapeCast S4x4096x4096 a shapeCasts_S16384x4096_S4x4096x4096)
    ((Pipeline.withArrays_arr spec0 launch0.win.arr_inj c (V0 m c) (fun w => (dats m 0 c).arrAt w cfg0.N) 2).trans (final m c))

end Cert.KernelIdeal.Acc

end
-- ==== Proof.KRun.lean ====
/-
  The kernel program's run, read: its result is the linear layer of the effective weights.

  Before the region the program forms the correction array (the rank-12 product of the scaled left factor with the
  transposed right factor, times the scaling constant), adds it to the base weights, flattens the activations'
  leading axes and converts both to the 16-bit format — the identity on extended reals. So the flattened activations
  at row `4096·b + s` are the activations at `(b, s)`, the effective weights are base weight plus correction, and the
  result at `(b, s, o)`, entry `(4096·b + s, o)` of the product, is the sum over the input features of activation
  times effective weight.
-/
import proofs.«153815_j48576080118359_1_alg».proof.Proof.KFinal

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Accum Cert.LowRank

variable (m : (ℓ : Loc nD τ sig) → Buf (Elt Ideal) ℓ) (ρ : Dev nD → PrngReg)

/-- The five argument arrays as launched, at their literal types: activations, base weights, left factor, scales,
    right factor. -/
abbrev xin (c : Dev nD) : FVec Ideal S4x4096x4096 .f32 := m ((c : Thread nD τ).loc main_arg0)
abbrev win (c : Dev nD) : FVec Ideal S4096x4096 .f32 := m ((c : Thread nD τ).loc main_arg1)
abbrev pin (c : Dev nD) : FVec Ideal S4096x12 .f32 := m ((c : Thread nD τ).loc main_arg2)
abbrev sin (c : Dev nD) : FVec Ideal S12 .f32 := m ((c : Thread nD τ).loc main_arg3)
abbrev qin (c : Dev nD) : FVec Ideal S4096x12 .f32 := m ((c : Thread nD τ).loc main_arg4)

/-- The correction array as the program forms it from the two factors, the scales and the scaling constant. -/
def corr (p : FVec Ideal S4096x12 .f32) (s : FVec Ideal S12 .f32) (q : FVec Ideal S4096x12 .f32) : FVec Ideal S4096x4096 .f32 :=
  mulf (Host.dotGeneral dot_S4096x12_S12x4096_S4096x4096_1_0_0_1_n_n none
      (mulf p (broadcastInDim S4096x12 ![0, 1] bcast_S1x12_S4096x12_0_1 (broadcastInDim S1x12 ![1] bcast_S12_S1x12_1 s)))
      (transpose S12x4096 [1, 0] q transposes_S4096x12_S12x4096_1_0))
    (broadcastInDim S4096x4096 ![] bcast_S_S4096x4096 (constant S_ .f32 0x3FAAAAAB#32))

/-- The effective weights the region finds: base weight plus correction, entry by entry. -/
theorem warr_eq (c : Dev nD) :
    warr m c = fun j => win m c j + corr (pin m c) (sin m c) (qin m c) j := by
  show StableHlo.after hostOps0 (fun b => m (c, b)) (Proc.devRef .tc main_v10) = _
  after_results
  rfl

/-- The flattened activations the region finds, as the program forms them. -/
theorem xarr_eq (c : Dev nD) :
    xarr m c = (truncf (F := Ideal) .bf16 (shapeCast S16384x4096 (xin m c) shapeCasts_S4x4096x4096_S16384x4096) bitsLt_bf16_f32 : FVec Ideal S16384x4096 .bf16) := by
  show StableHlo.after hostOps0 (fun b => m (c, b)) (Proc.devRef .tc main_v9) = _
  after_results
  rfl

/-- Row `4096·b + s` of the flattened activations is the activation row `(b, s)`. -/
theorem xarr_apply (c : Dev nD) (b : Fin 4) (s k : Fin 4096) (hr : 4096 * b.val + s.val < 16384) :
    xarr m c (ix2 ⟨4096 * b.val + s.val, hr⟩ k) = xin m c (ix3 b s k) := by
  rw [xarr_eq]
  show shapeCast S16384x4096 (xin m c) shapeCasts_S4x4096x4096_S16384x4096 (ix2 ⟨4096 * b.val + s.val, hr⟩ k) = _
  refine shapeCast_apply _ _ _ _ ?_
  rw [Shape.rowMajor_val_three, Shape.rowMajor_val_two]
  show (b.val * 4096 + s.val) * 4096 + k.val = (4096 * b.val + s.val) * 4096 + k.val
  omega

/-- The program's result array is the linear layer of the effective weights. -/
theorem result_eq (c : Dev nD) :
    shapeCast S4x4096x4096 (prodT (xarr m c) (warr m c)) shapeCasts_S16384x4096_S4x4096x4096
      = lin (xin m c) (fun j => win m c j + corr (pin m c) (sin m c) (qin m c) j) := by
  funext i
  obtain ⟨b, s, o, rfl⟩ : ∃ (b : Fin 4) (s o : Fin 4096), i = ix3 b s o := ⟨i 0, i 1, i 2, eq_ix3 i⟩
  have hb : b.val < 4 := b.isLt
  have hs : s.val < 4096 := s.isLt
  have hr : 4096 * b.val + s.val < 16384 := by omega
  refine (shapeCast_apply _ _ (ix3 b s o) (ix2 ⟨4096 * b.val + s.val, hr⟩ o) ?_).trans ?_
  · rw [Shape.rowMajor_val_two, Shape.rowMajor_val_three]
    show (4096 * b.val + s.val) * 4096 + o.val = (b.val * 4096 + s.val) * 4096 + o.val
    omega
  · show ∑ d : Fin 4096, xarr m c (ix2 ⟨4096 * b.val + s.val, hr⟩ d) * warr m c (ix2 o d) = ∑ k : Fin 4096, _ * _
    refine Finset.sum_congr rfl fun k _ => ?_
    rw [xarr_apply, warr_eq]

/-- The run, read: the result at the linear layer of the effective weights, the five arguments unchanged. -/
theorem run : θ_run defs (onTc (τ := τ) (main (F := Ideal))) ⟨m, fun _ => 0, ρ⟩ (fun r => ∀ c : Dev nD,
      r.2.mem ((c.tc : Thread nD τ).loc main_v12)
        = lin (xin m c) (fun j => win m c j + corr (pin m c) (sin m c) (qin m c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v12 (Pipeline.mem_restRefs_of main_v12 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RefSide.lean ====
/-
  The reference, read entry by entry at the ideal instance: its result at `(b, s, o)` is the linear layer of the base
  weights plus the linear layer of the scaled low-rank correction, each a sum over the 4096 input features. The
  correction array (the rank-12 product, scaled) is kept as one term and never opened: the kernel forms the very same
  array before its matrix product.
-/
import proofs.«153815_j48576080118359_1_alg».proof.Proof.Gen.ReferenceIdeal.Run
import proofs.«153815_j48576080118359_1_alg».proof.Proof.Gen.ReferenceIdeal.Read
import proofs.«153815_j48576080118359_1_alg».proof.Proof.Spec

noncomputable section

open scoped BigOperators

namespace Cert.ReferenceIdeal.RefValue

open Cert.ReferenceIdeal Cert.ReferenceIdeal.Read Idealize.ShloMosaic Idealize.ShloMosaic.ValueIdx Cert.LowRank

/-- The operand indices of the two big contractions, by coordinates: the activation at `(b, s, k)`, the weight at `(o, k)`. -/
theorem lhs_base (i : S4x4096x4096.Idx) (k : Fin 4096) : lidx_main_v0 i k = ix3 (i 0) (i 1) k :=
  funext fun a => by match a with | ⟨0, _⟩ => rfl | ⟨1, _⟩ => rfl | ⟨2, _⟩ => rfl
theorem rhs_base (i : S4x4096x4096.Idx) (k : Fin 4096) : ridx_main_v0 i k = ix2 (i 2) k :=
  funext fun a => by match a with | ⟨0, _⟩ => rfl | ⟨1, _⟩ => rfl
theorem lhs_corr (i : S4x4096x4096.Idx) (k : Fin 4096) : lidx_main_v8 i k = ix3 (i 0) (i 1) k :=
  funext fun a => by match a with | ⟨0, _⟩ => rfl | ⟨1, _⟩ => rfl | ⟨2, _⟩ => rfl
theorem rhs_corr (i : S4x4096x4096.Idx) (k : Fin 4096) : ridx_main_v8 i k = ix2 (i 2) k :=
  funext fun a => by match a with | ⟨0, _⟩ => rfl | ⟨1, _⟩ => rfl

/-- The reference's result is the layer of the base weights plus the layer of the correction. -/
theorem result_eq (x : S4x4096x4096.Idx → EReal) (w : S4096x4096.Idx → EReal) (p : S4096x12.Idx → EReal)
    (s : S12.Idx → EReal) (q : S4096x12.Idx → EReal) :
    val_main_v9 (F := Ideal) x w p s q = fun i => lin x w i + lin x (val_main_v7 (F := Ideal) p s q) i := by
  funext i
  rw [val_main_v9_apply, val_main_v0_apply, val_main_v8_apply]
  simp only [lhs_base, rhs_base, lhs_corr, rhs_corr]
  rfl

end Cert.ReferenceIdeal.RefValue

end
-- ==== Proof.Finite.lean ====
/-
  The precondition compares the absolute value of every entry of each input with +∞ and takes the
  conjunction of all those comparisons. An extended real e with |e| < +∞ is neither +∞ nor −∞
  (|−∞| = +∞ too), so it is a real number. Read at the activations and at the base weights, this
  gives the two facts below.
-/
import proofs.«153815_j48576080118359_1_alg».proof.Pre_finite_inputs
import Idealize.ShloMosaic.Lib.ReduceAll
import Idealize.ShloMosaic.PureOps.Ideal

namespace Cert.Finite
open Idealize.ShloMosaic Cert.Pre_finite_inputs

/-- The 32-bit word with all exponent bits set and a zero mantissa denotes +∞. -/
theorem inf_word : Ideal.ofBits .f32 0x7F800000#32 = (⊤ : EReal) := by
  simp [Ideal.ofBits, Ideal.ieee]

/-- If the strict comparison of |e| with +∞ holds, then e is a real number: for e = −∞ and for
    e = +∞ the absolute value is +∞, which is not below itself. -/
theorem real_of_abs_lt_inf (e : Ideal .f32)
    (h : FloatOps.cmpf (F := Ideal) .olt (FloatOps.hostAbsf e) (FloatOps.ofBits .f32 0x7F800000#32) = 1#1) :
    ∃ a : ℝ, e = (a : EReal) := by
  change Ideal.cmp .olt (max e (-e)) (Ideal.ofBits .f32 0x7F800000#32) = 1#1 at h
  rw [inf_word] at h
  induction e using EReal.rec with
  | bot => simp [Ideal.cmp] at h
  | coe a => exact ⟨a, rfl⟩
  | top => simp [Ideal.cmp] at h

/-- Where the precondition holds, every activation and every base weight is a real number. -/
theorem reals_of_finite_inputs [Cert.Pre_finite_inputs.Facts]
    (x : FVec Ideal S4x4096x4096 .f32) (w : FVec Ideal S4096x4096 .f32) (p : FVec Ideal S4096x12 .f32)
    (s : FVec Ideal S12 .f32) (q : FVec Ideal S4096x12 .f32)
    (h : fn (F := Ideal) x w p s q = fun _ => 1#1) :
    (∀ i : S4x4096x4096.Idx, ∃ a : ℝ, x i = (a : EReal)) ∧ (∀ j : S4096x4096.Idx, ∃ b : ℝ, w j = (b : EReal)) := by
  -- the shape with no axes has exactly one index
  haveI : Subsingleton S_.Idx := ⟨fun a b => funext fun d => d.elim0⟩
  -- the one entry of the rank-0 result, with the chain of operations opened
  have h0 := congrFun h (fun d => d.elim0)
  dsimp only [fn, fn_part1] at h0
  -- the result is ((((X ∧ W) ∧ P) ∧ S) ∧ Q): peel the three outer conjunctions, keep X and W
  obtain ⟨h1, -⟩ := IntOp.andi_eq_one.1 h0
  obtain ⟨h2, -⟩ := IntOp.andi_eq_one.1 h1
  obtain ⟨h3, -⟩ := IntOp.andi_eq_one.1 h2
  obtain ⟨hx, hw⟩ := IntOp.andi_eq_one.1 h3
  -- a conjunction over all axes that holds, holds at every index
  exact ⟨fun i => real_of_abs_lt_inf (x i) (Host.reduce_andi_all _ _ _ _ _ hx i),
    fun j => real_of_abs_lt_inf (w j) (Host.reduce_andi_all _ _ _ _ _ hw j)⟩

end Cert.Finite
-- ==== Proof.lean ====
/-
  A linear layer with a low-rank correction of its weights: `out[b, s, o] = Σₖ x[b, s, k] · (W[o, k] + D[o, k])`, where
  `D = ((P · σ) Qᵀ) · (16/12 as a float)` is formed from two 4096 × 12 factors and a length-12 scale.

  The kernel forms the effective weights `W + D` first and multiplies the flattened activations (16384 × 4096) by their
  transpose in blocks of 1024 × 1024, accumulating over the four blocks of the contracted axis in an accumulator that
  is reset at the first block and copied out after the last. The reference applies the layer to `W` and to `D`
  separately and adds the two results.

  At the ideal instance (floats are extended reals, the conversions to the 16-bit format the identity) the kernel's
  four partial sums add up to the full sum over the 4096 input features — re-association only — so its result is the
  layer of `W + D` (`Cert.KernelIdeal.Acc.run`). The reference's result is the layer of `W` plus the layer of `D`
  (`Cert.ReferenceIdeal.RefValue.result_eq`), with the SAME array `D`: both programs form it by the same operations
  of the same arguments, and it is never opened. The two agree because every product `x · (W + D)` distributes when
  `x` and `W` are real numbers, whatever `D` is; that the activations and the base weights are real is what the
  precondition says of them (`Cert.Finite.reals_of_finite_inputs`).

  The frames of the two kernel programs are the generated ones; the reference's frame is its generated run with the
  result dropped; the idealization rewrote nothing.
-/
import proofs.«153815_j48576080118359_1_alg».proof.Defs
import proofs.«153815_j48576080118359_1_alg».proof.Proof.Gen.Kernel
import proofs.«153815_j48576080118359_1_alg».proof.Proof.Gen.Kernel.Frame
import proofs.«153815_j48576080118359_1_alg».proof.Proof.Gen.KernelIdeal
import proofs.«153815_j48576080118359_1_alg».proof.Proof.Gen.KernelIdeal.Frame
import proofs.«153815_j48576080118359_1_alg».proof.Proof.Gen.ReferenceIdeal
import proofs.«153815_j48576080118359_1_alg».proof.Proof.Gen.ReferenceIdeal.Run
import proofs.«153815_j48576080118359_1_alg».proof.Proof.Gen.Pre_finite_inputs
import proofs.«153815_j48576080118359_1_alg».proof.Proof.KRun
import proofs.«153815_j48576080118359_1_alg».proof.Proof.RefSide
import proofs.«153815_j48576080118359_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the base weights plus the layer of the correction: the kernel at the layer of
    their sum, which distributes because the activations and the base weights are real. -/
theorem algebraic : Cert.algebraic_KernelIdeal_ReferenceIdeal := by
  intro m ρ m' ρ' hpre hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨hx, hw⟩ := Cert.Finite.reals_of_finite_inputs _ _ _ _ _ (hpre c)
  rw [Cert.ReferenceIdeal.Read.val_main_v9_eq, Cert.ReferenceIdeal.RefValue.result_eq]
  exact (Cert.LowRank.lin_add _ _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
